-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_v43 : IVec S_ 1) (main_v47 : IVec S800000 1) (main_v51 : IVec S800000 1) : IVec S_ 1 :=
  let main_v52 : IVec S800000 1 := andi main_v47 main_v51
  let main_c_18 : IVec S_ 1 := constantI S_ 1 1#1
  let main_v53 : IVec S_ 1 := (fun x v => Host.reduce IntOp.andi x v reducesTo_S800000_S_d0 h_S_) main_v52 main_c_18
  let main_v54 : IVec S_ 1 := andi main_v43 main_v53
  main_v54

def fn_part2 {F : FTy → Type} [FloatOps F] (main_arg1 : IVec S2x800000 32) (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : IVec S1x800000 32 := (extractStridedSlice S1x800000 ![0, 0] · slices_S2x800000_S1x800000_0_0) main_arg1
  let main_v45 : IVec S800000 32 := shapeCast S800000 main_v44 shapeCasts_S1x800000_S800000
  let main_c_16 : IVec S_ 32 := constantI S_ 32 4294917296#32
  let main_v46 : IVec S800000 32 := broadcastInDim S800000 ![] bcast_S_S800000 main_c_16
  let main_v47 : IVec S800000 1 := cmpi .sge main_v45 main_v46
  let main_v48 : IVec S1x800000 32 := (extractStridedSlice S1x800000 ![0, 0] · slices_S2x800000_S1x800000_0_0) main_arg1
  let main_v49 : IVec S800000 32 := shapeCast S800000 main_v48 shapeCasts_S1x800000_S800000
  let main_c_17 : IVec S_ 32 := constantI S_ 32 50000#32
  let main_v50 : IVec S800000 32 := broadcastInDim S800000 ![] bcast_S_S800000 main_c_17
  let main_v51 : IVec S800000 1 := cmpi .slt main_v49 main_v50
  fn_part3 (F := F) main_v43 main_v47 main_v51

def fn_part1 {F : FTy → Type} [FloatOps F] (main_arg1 : IVec S2x800000 32) (main_arg5 : FVec F S128x128 .f32) (main_arg6 : FVec F S128x128 .f32) (main_arg7 : FVec F S128 .f32) (main_arg8 : FVec F S128x40 .f32) (main_arg9 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x40 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000x1 : Shape := ⟨2, ![50000, 1]⟩
abbrev S1x128 : Shape := ⟨2, ![1, 128]⟩
abbrev S2000x128 : Shape := ⟨2, ![2000, 128]⟩
abbrev S1x40 : Shape := ⟨2, ![1, 40]⟩
abbrev S50000x40 : Shape := ⟨2, ![50000, 40]⟩
abbrev S2000x40 : Shape := ⟨2, ![2000, 40]⟩

abbrev nBuf : Space → Nat
  | .hbm => 98
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S1, .i32⟩
  | .hbm, ⟨42, _⟩ => ⟨S_, .i32⟩
  | .hbm, ⟨43, _⟩ => ⟨S800000x1, .i32⟩
  | .hbm, ⟨44, _⟩ => ⟨S800000x1, .i1⟩
  | .hbm, ⟨45, _⟩ => ⟨S1x1, .i32⟩
  | .hbm, ⟨46, _⟩ => ⟨S800000x1, .i32⟩
  | .hbm, ⟨47, _⟩ => ⟨S800000x1, .i1⟩
  | .hbm, ⟨48, _⟩ => ⟨S800000x1, .i1⟩
  | .hbm, ⟨49, _⟩ => ⟨S_, .i1⟩
  | .hbm, ⟨50, _⟩ => ⟨S800000, .i1⟩
  | .hbm, ⟨51, _⟩ => ⟨S800000x128, .f32⟩
  | .hbm, ⟨52, _⟩ => ⟨S800000x128, .i1⟩
  | .hbm, ⟨53, _⟩ => ⟨S_, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S1, .i32⟩
  | .hbm, ⟨74, _⟩ => ⟨S_, .i32⟩
  | .hbm, ⟨75, _⟩ => ⟨S800000x1, .i32⟩
  | .hbm, ⟨76, _⟩ => ⟨S800000x1, .i1⟩
  | .hbm, ⟨77, _⟩ => ⟨S1x1, .i32⟩
  | .hbm, ⟨78, _⟩ => ⟨S800000x1, .i32⟩
  | .hbm, ⟨79, _⟩ => ⟨S800000x1, .i1⟩
  | .hbm, ⟨80, _⟩ => ⟨S800000x1, .i1⟩
  | .hbm, ⟨81, _⟩ => ⟨S_, .i1⟩
  | .hbm, ⟨82, _⟩ => ⟨S800000, .i1⟩
  | .hbm, ⟨83, _⟩ => ⟨S800000x128, .f32⟩
  | .hbm, ⟨84, _⟩ => ⟨S800000x128, .i1⟩
  | .hbm, ⟨85, _⟩ => ⟨S_, .f32⟩
  | .hbm, ⟨86, _⟩ => ⟨S800000x128, .f32⟩
  | .hbm, ⟨87, _⟩ => ⟨S800000x128, .f32⟩
  | .hbm, ⟨88, _⟩ => ⟨S_, .f32⟩
  | .hbm, ⟨89, _⟩ => ⟨S50000x128, .f32⟩
  | .hbm, ⟨90, _⟩ => ⟨S800000x1, .i32⟩
  | .hbm, ⟨91, _⟩ => ⟨S50000x128, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S1x128, .f32⟩
  | .hbm, ⟨96, _⟩ => ⟨S1x40, .f32⟩
  | .hbm, ⟨97, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v15 : Ref sig .tc := ⟨.hbm, 55, rfl⟩
abbrev main_cst_5 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v24 : Ref sig .tc := ⟨.hbm, 87, rfl⟩
abbrev main_cst_6 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x40 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x40.size a ≤ S128x40.size a
  hwx1_5 : ∀ i : grid1.Coords, EltTy.bits .f32 = 32 ∨ (Rect.block (s := S128x40) S128x40.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x40.size a ≤ S1x40.size a
  hwx1_6 : ∀ i : grid1.Coords, EltTy.bits .f32 = 32 ∨ (Rect.block (s := S1x40) S1x40.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x40.size a ≤ S50000x40.size a
  hwx1_7 : ∀ i : grid1.Coords, EltTy.bits .f32 = 32 ∨ (Rect.block (s := S50000x40) S2000x40.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S2000x40.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S50000x40, .f32⟩
  | .hbm, ⟨84, _⟩ => ⟨S1x40, .f32⟩
  | .hbm, ⟨85, _⟩ => ⟨S50000x40, .f32⟩
  | .hbm, ⟨86, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call2_cst : Ref sig .tc := ⟨.hbm, 80, rfl⟩
abbrev main_call2_v0 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.Spec.lean ====
/-
  The two dense stages of the network as functions of whole arrays, index by index, over the extended reals.

  One graph-convolution layer takes the mean-aggregated neighbour features `agg`, the node features `x`, two weight
  matrices and a bias row, and returns `max (agg · Wl + x · Wr + b) 0`: entry (n, j) is the maximum of 0 and
  `Σ_k agg(n,k) Wl(k,j) + Σ_k x(n,k) Wr(k,j) + b(0,j)`. The classifier is one more product and bias on top of a
  layer's output, with no maximum. Both programs compute exactly these sums (in the same association), the kernel
  tile by tile over the node axis and the reference on whole arrays; a change of float format is the identity here.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx
open scoped BigOperators

/-- A matrix of extended reals with `r` rows and `c` columns, indexed as a rank-2 array is. -/
abbrev Mat (r c : Nat) : Type := (⟨2, ![r, c]⟩ : Shape).Idx → EReal

/-- The zero the maximum is taken against: the value of the all-zero f32 word. -/
abbrev zeroWord : EReal := Ideal.ofBits .f32 0x00000000#32

/-- The affine part of a layer at entry (n, j): the two products' sums, then the bias (a one-row matrix). -/
def affine {N C D : Nat} (agg x : Mat N C) (Wl Wr : Mat C D) (b : Mat 1 D) (n : Fin N) (j : Fin D) : EReal :=
  ((∑ k : Fin C, agg (ix2 n k) * Wl (ix2 k j)) + (∑ k : Fin C, x (ix2 n k) * Wr (ix2 k j))) + b (ix2 0 j)

/-- One layer: the affine part, then the maximum with zero. -/
def layer {N C D : Nat} (agg x : Mat N C) (Wl Wr : Mat C D) (b : Mat 1 D) : Mat N D :=
  fun i => max (affine agg x Wl Wr b (i 0) (i 1)) zeroWord

/-- The classifier on a layer's output `h`: one product and a bias row. -/
def classify {N C D : Nat} (h : Mat N C) (Wc : Mat C D) (bc : Mat 1 D) : Mat N D :=
  fun i => (∑ k : Fin C, h (ix2 (i 0) k) * Wc (ix2 k (i 1))) + bc (ix2 0 (i 1))

theorem layer_apply {N C D : Nat} (agg x : Mat N C) (Wl Wr : Mat C D) (b : Mat 1 D) (n : Fin N) (j : Fin D) :
    layer agg x Wl Wr b (ix2 n j) = max (affine agg x Wl Wr b n j) zeroWord := rfl

theorem classify_apply {N C D : Nat} (h : Mat N C) (Wc : Mat C D) (bc : Mat 1 D) (n : Fin N) (j : Fin D) :
    classify h Wc bc (ix2 n j) = (∑ k : Fin C, h (ix2 n k) * Wc (ix2 k j)) + bc (ix2 0 j) := rfl

end Cert.Sage

end
-- ==== Proof.KernelLayer1.lean ====
/-
  The first kernel region, read as a value. Each grid point t loads tile t (2000 rows) of the aggregate and of the node
  features, the two whole weight matrices and the bias row, and stores `max (a · Wl + x · Wr + b) 0` of them into tile t of
  the output: two products into zero accumulators (the change to bf16 before them is the identity on the extended
  reals), their sum, the bias broadcast down the rows, the maximum with zero. Read at an entry this is the layer's
  affine part at that entry; the 25 tiles partition the 50000 rows, so the output array ends as one layer of the whole
  arrays.
-/
import proofs.«409698_j3899830304782_1_alg».proof.Proof.Gen.KernelIdeal.Frame
import proofs.«409698_j3899830304782_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat)
open scoped BigOperators

theorem lhs_0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A tile's product into a zero accumulator, read at entry (p, q): the sum over the contracted axis. -/
theorem matmul_at {φ₁ φ₂ : FTy} (a : FVec Ideal S2000x128 φ₁) (w : FVec Ideal S128x128 φ₂) (p : Fin 2000) (q : Fin 128) :
    matmul dot_S2000x128_S128x128_S2000x128_1_0_0_1_n_n none a w (constant S2000x128 .f32 0x00000000#32) (ix2 p q) = ∑ k : Fin 128, a (ix2 p k) * w (ix2 k q) := by
  show FloatOps.matmul dot_S2000x128_S128x128_S2000x128_1_0_0_1_n_n none a w (constant S2000x128 .f32 0x00000000#32) (ix2 p q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row broadcast over a tile, read at entry (p, q): the row's entry q. -/
theorem bias_at (b : Vec Ideal S1x128 .f32) (p : Fin 2000) (q : Fin 128) :
    broadcastTo S2000x128 (shapeCast S1x128 b shapeCasts_S1x128_S1x128) broadcasts_S1x128_S2000x128 (ix2 p q) = b (ix2 0 q) := by
  rw [shapeCast_self]
  refine broadcastTo_apply b broadcasts_S1x128_S2000x128 (ix2 p q) (ix2 0 q) (fun a => ?_)
  match a with
  | ⟨0, _⟩ => rfl
  | ⟨1, _⟩ => rfl

/-- The body's stored value at entry (p, q) of the tile: the layer's affine part of the loaded blocks, then the
    maximum with zero. -/
theorem pay_at (x0 x1 : Vec Ideal S2000x128 .f32) (x2 x3 : Vec Ideal S128x128 .f32) (x4 : Vec Ideal S1x128 .f32) (p : Fin 2000) (q : Fin 128) :
    k0_pay1 (F := Ideal) x0 x1 x2 x3 x4 (ix2 p q) = max (Sage.affine x0 x1 x2 x3 x4 p q) Sage.zeroWord := by
  unfold k0_pay1
  rw [maximumf_apply, addf_apply, addf_apply, matmul_at, matmul_at, bias_at]
  simp only [truncf_apply, shapeCast_self]
  rfl

/-! ## From the tiles to the array -/

section Array

variable (V : (c : Dev nD) → (b : Ref sig .tc) → Buf (Elt Ideal) ((c : Thread nD τ).loc b))

/-- The arrays the region reads, as it finds them, by their literal types. -/
abbrev aggA (c : Dev nD) : Vec Ideal S50000x128 .f32 := V c main_v21
abbrev xA (c : Dev nD) : Vec Ideal S50000x128 .f32 := V c main_arg0
abbrev wlA (c : Dev nD) : Vec Ideal S128x128 .f32 := V c main_arg2
abbrev wrA (c : Dev nD) : Vec Ideal S128x128 .f32 := V c main_arg3
abbrev bA (c : Dev nD) : Vec Ideal S1x128 .f32 := V c main_v22

theorem hz : (![0, 0] : Fin 2 → Nat) = fun _ => 0 := funext fun a => by fin_cases a <;> rfl

/-- The printed index maps over the grid: point t takes tile t of the node axis of the aggregate, the features and
    the output, and the whole of each weight matrix and of the bias row. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row of the whole array that row p of tile t is. -/
def rowOf (t : Fin cfg0.N) (p : Fin 2000) : Fin 50000 :=
  ⟨t.val * 2000 + p.val, by have h : t.val < 25 := lt_of_lt_of_eq t.isLt N_0; have := p.isLt; omega⟩

theorem blk0 (c : Dev nD) (t : Fin cfg0.N) (p : Fin 2000) (k : Fin 128) :
    iblk0 V c 0 t (ix2 p k) = aggA V c (ix2 (rowOf t p) k) := by
  obtain ⟨e00, e01, -⟩ := idx_facts t
  show aggA V c (((cfg0.win 0).blk t).view.emb (ix2 p k)) = _
  refine congrArg (aggA V c) ?_
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

theorem blk1 (c : Dev nD) (t : Fin cfg0.N) (p : Fin 2000) (k : Fin 128) :
    iblk0 V c 1 t (ix2 p k) = xA V c (ix2 (rowOf t p) k) := by
  obtain ⟨-, -, e10, e11, -⟩ := idx_facts t
  show xA V c (((cfg0.win 1).blk t).view.emb (ix2 p k)) = _
  refine congrArg (xA V c) ?_
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

theorem blk2 (c : Dev nD) (t : Fin cfg0.N) (k q : Fin 128) :
    iblk0 V c 2 t (ix2 k q) = wlA V c (ix2 k q) := by
  obtain ⟨-, -, -, -, e20, e21, -⟩ := idx_facts t
  show wlA V c (((cfg0.win 2).blk t).view.emb (ix2 k q)) = _
  refine congrArg (wlA V c) ?_
  funext a; apply Fin.ext
  match a with
  | ⟨0, _⟩ => show win0_2.index t (0 : Fin 2) * 128 + 1 * k.val = k.val; omega
  | ⟨1, _⟩ => show win0_2.index t (1 : Fin 2) * 128 + 1 * q.val = q.val; omega

theorem blk3 (c : Dev nD) (t : Fin cfg0.N) (k q : Fin 128) :
    iblk0 V c 3 t (ix2 k q) = wrA V c (ix2 k q) := by
  obtain ⟨-, -, -, -, -, -, e30, e31, -⟩ := idx_facts t
  show wrA V c (((cfg0.win 3).blk t).view.emb (ix2 k q)) = _
  refine congrArg (wrA V c) ?_
  funext a; apply Fin.ext
  match a with
  | ⟨0, _⟩ => show win0_3.index t (0 : Fin 2) * 128 + 1 * k.val = k.val; omega
  | ⟨1, _⟩ => show win0_3.index t (1 : Fin 2) * 128 + 1 * q.val = q.val; omega

theorem blk4 (c : Dev nD) (t : Fin cfg0.N) (q : Fin 128) :
    iblk0 V c 4 t (ix2 0 q) = bA V c (ix2 0 q) := by
  obtain ⟨-, -, -, -, -, -, -, -, e40, e41, -⟩ := idx_facts t
  show bA V c (((cfg0.win 4).blk t).view.emb (ix2 0 q)) = _
  refine congrArg (bA V c) ?_
  funext a; apply Fin.ext
  match a with
  | ⟨0, _⟩ => show win0_4.index t (0 : Fin 2) * 1 + 1 * 0 = 0; omega
  | ⟨1, _⟩ => show win0_4.index t (1 : Fin 2) * 128 + 1 * q.val = q.val; omega

/-- What point t writes back is tile t of the layer of the whole arrays. -/
theorem flushed_eq (c : Dev nD) (t : Fin cfg0.N) :
    (dat0 (F := Ideal) V c).flushed 5 t = ((cfg0.win 5).blk t).view.read (Elt Ideal)
      (Sage.layer (aggA V c) (xA V c) (wlA V c) (wrA V c) (bA V c)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  funext j
  obtain ⟨p, q, rfl⟩ : ∃ (p : Fin 2000) (q : Fin 128), j = ix2 p q := ⟨j 0, j 1, eq_ix2 j⟩
  have h5 : ((cfg0.win 5).blk t).view.emb (ix2 p q) = ix2 (rowOf t p) q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  show k0_pay1 (iblk0 V c 0 t) (iblk0 V c 1 t) (iblk0 V c 2 t) (iblk0 V c 3 t) (iblk0 V c 4 t) (ix2 p q)
    = Sage.layer (aggA V c) (xA V c) (wlA V c) (wrA V c) (bA V c) (((cfg0.win 5).blk t).view.emb (ix2 p q))
  rw [h5, Sage.layer_apply]
  refine (pay_at (iblk0 V c 0 t) (iblk0 V c 1 t) (iblk0 V c 2 t) (iblk0 V c 3 t) (iblk0 V c 4 t) p q).trans ?_
  unfold Sage.affine
  rw [blk4 V c t q]
  exact congrArg (max · Sage.zeroWord) (congrArg (· + bA V c (ix2 0 q)) (congrArg₂ (· + ·)
    (Finset.sum_congr rfl fun k _ => by rw [blk0 V c t p k, blk2 V c t k q])
    (Finset.sum_congr rfl fun k _ => by rw [blk1 V c t p k, blk3 V c t k q])))

/-- An index of the array is in point t's tile iff each coordinate is in the tile's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v23).slice (win0_5.rect t)).set ↔ _
  rw [View.set_slice_whole, Rect.mem_set_unit]
  exact Iff.rfl

/-- Every entry of the output lies in the tile of the point its row divided by the tile height names. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, -, -, -, -, e50, e51⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e51]; omega

/-- The output array after the region: one layer of the arrays the region finds. -/
theorem final (c : Dev nD) :
    (dat0 (F := Ideal) V c).arrAt 5 cfg0.N = Sage.layer (aggA V c) (xA V c) (wlA V c) (wrA V c) (bA V c) :=
  (dat0 V c).arrAt_eq_of_cover 5 _ (fun t _ => flushed_eq V c t) cover

end Array

end Cert.KernelIdeal.Layer1

end
-- ==== Proof.KernelLayer2.lean ====
/-
  The second kernel region, read as a value. Each grid point t loads tile t of the second aggregate and of the hidden
  features, the layer's two weight matrices and bias row, the classifier's weight matrix and bias row, forms the layer's
  value on the tile as in the first region, and stores its product with the classifier matrix plus the classifier bias
  into tile t of the output. Entry (p, q) of the tile is `Σ_k max (affine(p, k)) 0 · Wc(k, q) + bc(q)`; the 25 tiles
  partition the rows, so the output array ends as the classifier applied to one layer of the whole arrays.
-/
import proofs.«409698_j3899830304782_1_alg».proof.Proof.KernelLayer1

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat)
open scoped BigOperators

theorem lhs_0 (i : S2000x40.Idx) (q : dot_S2000x128_S128x40_S2000x40_1_0_0_1_n_n.contr.Idx) : (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
theorem lhs_1 (i : S2000x40.Idx) (q : dot_S2000x128_S128x40_S2000x40_1_0_0_1_n_n.contr.Idx) : (dot_S2000x128_S128x40_S2000x40_1_0_0_1_n_n.lhsIdx i q 1).val = (q ⟨0, by decide⟩).val :=
  dot_S2000x128_S128x40_S2000x40_1_0_0_1_n_n.lhsIdx_val_of_single rfl i q
theorem rhs_0 (i : S2000x40.Idx) (q : dot_S2000x128_S128x40_S2000x40_1_0_0_1_n_n.contr.Idx) : (dot_S2000x128_S128x40_S2000x40_1_0_0_1_n_n.rhsIdx i q 0).val = (q ⟨0, by decide⟩).val :=
  dot_S2000x128_S128x40_S2000x40_1_0_0_1_n_n.rhsIdx_val_of_single rfl i q
theorem rhs_1 (i : S2000x40.Idx) (q : dot_S2000x128_S128x40_S2000x40_1_0_0_1_n_n.contr.Idx) : (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- The classifier product of a tile into a zero accumulator, read at entry (p, q). -/
theorem matmul_at {φ₁ φ₂ : FTy} (a : FVec Ideal S2000x128 φ₁) (w : FVec Ideal S128x40 φ₂) (p : Fin 2000) (q : Fin 40) :
    matmul dot_S2000x128_S128x40_S2000x40_1_0_0_1_n_n none a w (constant S2000x40 .f32 0x00000000#32) (ix2 p q) = ∑ k : Fin 128, a (ix2 p k) * w (ix2 k q) := by
  show FloatOps.matmul dot_S2000x128_S128x40_S2000x40_1_0_0_1_n_n none a w (constant S2000x40 .f32 0x00000000#32) (ix2 p q) = _
  rw [Ideal.matmul_constant_zero_apply, ← Equiv.sum_comp (ValueIdx.contrEquiv1 dot_S2000x128_S128x40_S2000x40_1_0_0_1_n_n 128 rfl rfl).symm]
  refine Finset.sum_congr rfl fun k _ => ?_
  have hk := ValueIdx.contrEquiv1_symm_val dot_S2000x128_S128x40_S2000x40_1_0_0_1_n_n 128 rfl rfl k
  have el : dot_S2000x128_S128x40_S2000x40_1_0_0_1_n_n.lhsIdx (ix2 p q) ((ValueIdx.contrEquiv1 dot_S2000x128_S128x40_S2000x40_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x40_S2000x40_1_0_0_1_n_n.rhsIdx (ix2 p q) ((ValueIdx.contrEquiv1 dot_S2000x128_S128x40_S2000x40_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The classifier's bias row broadcast over a tile, read at entry (p, q). -/
theorem bias_at (b : Vec Ideal S1x40 .f32) (p : Fin 2000) (q : Fin 40) :
    broadcastTo S2000x40 (shapeCast S1x40 b shapeCasts_S1x40_S1x40) broadcasts_S1x40_S2000x40 (ix2 p q) = b (ix2 0 q) := by
  rw [shapeCast_self]
  refine broadcastTo_apply b broadcasts_S1x40_S2000x40 (ix2 p q) (ix2 0 q) (fun a => ?_)
  match a with
  | ⟨0, _⟩ => rfl
  | ⟨1, _⟩ => rfl

/-- The body's stored value at entry (p, q) of the tile: the layer's value on row p, multiplied into column q of the
    classifier matrix, plus the classifier's bias. -/
theorem pay_at (x0 x1 : Vec Ideal S2000x128 .f32) (x2 x3 : Vec Ideal S128x128 .f32) (x4 : Vec Ideal S1x128 .f32)
    (x5 : Vec Ideal S128x40 .f32) (x6 : Vec Ideal S1x40 .f32) (p : Fin 2000) (q : Fin 40) :
    k1_pay1 (F := Ideal) x0 x1 x2 x3 x4 x5 x6 (ix2 p q)
      = (∑ k : Fin 128, max (Sage.affine x0 x1 x2 x3 x4 p k) Sage.zeroWord * x5 (ix2 k q)) + x6 (ix2 0 q) := by
  unfold k1_pay1
  rw [addf_apply, matmul_at, bias_at]
  refine congrArg (· + x6 (ix2 0 q)) (Finset.sum_congr rfl fun k _ => ?_)
  rw [truncf_apply, truncf_apply, maximumf_apply, addf_apply, addf_apply, Layer1.matmul_at, Layer1.matmul_at, Layer1.bias_at]
  simp only [truncf_apply, shapeCast_self]
  rfl

/-! ## From the tiles to the array -/

section Array

variable (V : (c : Dev nD) → (b : Ref sig .tc) → Buf (Elt Ideal) ((c : Thread nD τ).loc b))

/-- The arrays the region reads, as it finds them, by their literal types. -/
abbrev aggA (c : Dev nD) : Vec Ideal S50000x128 .f32 := V c main_v30
abbrev hA (c : Dev nD) : Vec Ideal S50000x128 .f32 := V c main_v23
abbrev wlA (c : Dev nD) : Vec Ideal S128x128 .f32 := V c main_arg5
abbrev wrA (c : Dev nD) : Vec Ideal S128x128 .f32 := V c main_arg6
abbrev bA (c : Dev nD) : Vec Ideal S1x128 .f32 := V c main_v31
abbrev wcA (c : Dev nD) : Vec Ideal S128x40 .f32 := V c main_arg8
abbrev bcA (c : Dev nD) : Vec Ideal S1x40 .f32 := V c main_v32

theorem hz : (![0, 0] : Fin 2 → Nat) = fun _ => 0 := funext fun a => by fin_cases a <;> rfl

/-- The printed index maps over the grid: point t takes tile t of the node axis of the aggregate, the hidden features
    and the output, and the whole of each weight matrix and bias row. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 ∧ True :=
  (by decide +kernel : ∀ t : Fin grid1.N, _)

/-- The row of the whole array that row p of tile t is. -/
def rowOf (t : Fin cfg1.N) (p : Fin 2000) : Fin 50000 :=
  ⟨t.val * 2000 + p.val, by have h : t.val < 25 := lt_of_lt_of_eq t.isLt N_1; have := p.isLt; omega⟩

theorem blk0 (c : Dev nD) (t : Fin cfg1.N) (p : Fin 2000) (k : Fin 128) :
    iblk1 V c 0 t (ix2 p k) = aggA V c (ix2 (rowOf t p) k) := by
  obtain ⟨e0, e1, -⟩ := idx_facts t
  show aggA V c (((cfg1.win 0).blk t).view.emb (ix2 p k)) = _
  refine congrArg (aggA V c) ?_
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

theorem blk1 (c : Dev nD) (t : Fin cfg1.N) (p : Fin 2000) (k : Fin 128) :
    iblk1 V c 1 t (ix2 p k) = hA V c (ix2 (rowOf t p) k) := by
  obtain ⟨-, -, e0, e1, -⟩ := idx_facts t
  show hA V c (((cfg1.win 1).blk t).view.emb (ix2 p k)) = _
  refine congrArg (hA V c) ?_
  funext a; apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega

theorem blk2 (c : Dev nD) (t : Fin cfg1.N) (k : Fin 128) (q : Fin 128) :
    iblk1 V c 2 t (ix2 k q) = wlA V c (ix2 k q) := by
  obtain ⟨-, -, -, -, e0, e1, -⟩ := idx_facts t
  show wlA V c (((cfg1.win 2).blk t).view.emb (ix2 k q)) = _
  refine congrArg (wlA V c) ?_
  funext a; apply Fin.ext
  match a with
  | ⟨0, _⟩ => show win1_2.index t (0 : Fin 2) * 128 + 1 * k.val = k.val; omega
  | ⟨1, _⟩ => show win1_2.index t (1 : Fin 2) * 128 + 1 * q.val = q.val; omega

theorem blk3 (c : Dev nD) (t : Fin cfg1.N) (k : Fin 128) (q : Fin 128) :
    iblk1 V c 3 t (ix2 k q) = wrA V c (ix2 k q) := by
  obtain ⟨-, -, -, -, -, -, e0, e1, -⟩ := idx_facts t
  show wrA V c (((cfg1.win 3).blk t).view.emb (ix2 k q)) = _
  refine congrArg (wrA V c) ?_
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem blk4 (c : Dev nD) (t : Fin cfg1.N) (q : Fin 128) :
    iblk1 V c 4 t (ix2 0 q) = bA V c (ix2 0 q) := by
  obtain ⟨-, -, -, -, -, -, -, -, e0, e1, -⟩ := idx_facts t
  show bA V c (((cfg1.win 4).blk t).view.emb (ix2 0 q)) = _
  refine congrArg (bA V c) ?_
  funext a; apply Fin.ext
  match a with
  | ⟨0, _⟩ => show win1_4.index t (0 : Fin 2) * 1 + 1 * 0 = 0; omega
  | ⟨1, _⟩ => show win1_4.index t (1 : Fin 2) * 128 + 1 * q.val = q.val; omega

theorem blk5 (c : Dev nD) (t : Fin cfg1.N) (k : Fin 128) (q : Fin 40) :
    iblk1 V c 5 t (ix2 k q) = wcA V c (ix2 k q) := by
  obtain ⟨-, -, -, -, -, -, -, -, -, -, e0, e1, -⟩ := idx_facts t
  show wcA V c (((cfg1.win 5).blk t).view.emb (ix2 k q)) = _
  refine congrArg (wcA V c) ?_
  funext a; apply Fin.ext
  match a with
  | ⟨0, _⟩ => show win1_5.index t (0 : Fin 2) * 128 + 1 * k.val = k.val; omega
  | ⟨1, _⟩ => show win1_5.index t (1 : Fin 2) * 40 + 1 * q.val = q.val; omega

theorem blk6 (c : Dev nD) (t : Fin cfg1.N) (q : Fin 40) :
    iblk1 V c 6 t (ix2 0 q) = bcA V c (ix2 0 q) := by
  obtain ⟨-, -, -, -, -, -, -, -, -, -, -, -, e0, e1, -⟩ := idx_facts t
  show bcA V c (((cfg1.win 6).blk t).view.emb (ix2 0 q)) = _
  refine congrArg (bcA V c) ?_
  funext a; apply Fin.ext
  match a with
  | ⟨0, _⟩ => show win1_6.index t (0 : Fin 2) * 1 + 1 * 0 = 0; omega
  | ⟨1, _⟩ => show win1_6.index t (1 : Fin 2) * 40 + 1 * q.val = q.val; omega

/-- What point t writes back is tile t of the classifier applied to the layer of the whole arrays. -/
theorem flushed_eq (c : Dev nD) (t : Fin cfg1.N) :
    (dat1 (F := Ideal) V c).flushed 7 t = ((cfg1.win 7).blk t).view.read (Elt Ideal)
      (Sage.classify (Sage.layer (aggA V c) (hA V c) (wlA V c) (wrA V c) (bA V c)) (wcA V c) (bcA V c)) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x128) hz, View.ld_unit_zero (S := S1x128) hz,
    View.ld_unit_zero (S := S128x40) hz, View.ld_unit_zero (S := S1x40) hz]
  obtain ⟨-, -, -, -, -, -, -, -, -, -, -, -, -, -, e70, e71, -⟩ := idx_facts t
  funext j
  obtain ⟨p, q, rfl⟩ : ∃ (p : Fin 2000) (q : Fin 40), j = ix2 p q := ⟨j 0, j 1, eq_ix2 j⟩
  have h7 : ((cfg1.win 7).blk t).view.emb (ix2 p q) = ix2 (rowOf t p) q := by
    funext a; apply Fin.ext
    match a with
    | ⟨0, _⟩ => show win1_7.index t (0 : Fin 2) * 2000 + 1 * p.val = t.val * 2000 + p.val; omega
    | ⟨1, _⟩ => show win1_7.index t (1 : Fin 2) * 40 + 1 * q.val = q.val; omega
  show k1_pay1 (iblk1 V c 0 t) (iblk1 V c 1 t) (iblk1 V c 2 t) (iblk1 V c 3 t) (iblk1 V c 4 t) (iblk1 V c 5 t) (iblk1 V c 6 t) (ix2 p q)
    = Sage.classify (Sage.layer (aggA V c) (hA V c) (wlA V c) (wrA V c) (bA V c)) (wcA V c) (bcA V c) (((cfg1.win 7).blk t).view.emb (ix2 p q))
  rw [h7, Sage.classify_apply]
  refine (pay_at (iblk1 V c 0 t) (iblk1 V c 1 t) (iblk1 V c 2 t) (iblk1 V c 3 t) (iblk1 V c 4 t) (iblk1 V c 5 t) (iblk1 V c 6 t) p q).trans ?_
  rw [blk6 V c t q]
  refine congrArg (· + bcA V c (ix2 0 q)) (Finset.sum_congr rfl fun k _ => ?_)
  rw [blk5 V c t k q, Sage.layer_apply]
  refine congrArg (· * wcA V c (ix2 k q)) (congrArg (max · Sage.zeroWord) ?_)
  unfold Sage.affine
  rw [blk4 V c t k]
  exact congrArg (· + bA V c (ix2 0 k)) (congrArg₂ (· + ·)
    (Finset.sum_congr rfl fun k' _ => by rw [blk0 V c t p k', blk2 V c t k' k])
    (Finset.sum_congr rfl fun k' _ => by rw [blk1 V c t p k', blk3 V c t k' k]))

/-- An index of the array is in point t's tile iff each coordinate is in the tile's range on its axis. -/
theorem mem_blk (t : Fin cfg1.N) (i : S50000x40.Idx) :
    i ∈ ((cfg1.win 7).blk t).view.set ↔ ∀ a : Fin 2, win1_7.index t a * S2000x40.size a ≤ (i a).val ∧ (i a).val < win1_7.index t a * S2000x40.size a + S2000x40.size a := by
  show i ∈ ((View.whole main_v33).slice (win1_7.rect t)).set ↔ _
  rw [View.set_slice_whole, Rect.mem_set_unit]
  exact Iff.rfl

/-- Every entry of the output lies in the tile of the point its row divided by the tile height names. -/
theorem cover (i : S50000x40.Idx) :
    ∃ t : Fin cfg1.N, (cfg1.win 7).flush t = true ∧ i ∈ ((cfg1.win 7).blk t).view.set := by
  have hi0 : (i 0).val < 50000 := (i 0).isLt
  have hi1 : (i 1).val < 40 := (i 1).isLt
  have hN : cfg1.N = 25 := N_1
  have ht : (i 0).val / 2000 < cfg1.N := by rw [hN]; omega
  obtain ⟨-, -, -, -, -, -, -, -, -, -, -, -, -, -, e70, e71, -⟩ := idx_facts ⟨(i 0).val / 2000, ht⟩
  refine ⟨⟨(i 0).val / 2000, ht⟩, flush1_7 _, ?_⟩
  rw [mem_blk]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [e70]; show (i 0).val / 2000 * 2000 ≤ (i 0).val ∧ (i 0).val < (i 0).val / 2000 * 2000 + 2000; omega
  | ⟨1, _⟩ =>
    show win1_7.index ⟨(i 0).val / 2000, ht⟩ (1 : Fin 2) * 40 ≤ (i 1).val ∧ (i 1).val < win1_7.index ⟨(i 0).val / 2000, ht⟩ (1 : Fin 2) * 40 + 40
    rw [e71]; omega

/-- The output array after the region: the classifier on one layer of the arrays the region finds. -/
theorem final (c : Dev nD) :
    (dat1 (F := Ideal) V c).arrAt 7 cfg1.N
      = Sage.classify (Sage.layer (aggA V c) (hA V c) (wlA V c) (wrA V c) (bA V c)) (wcA V c) (bcA V c) :=
  (dat1 V c).arrAt_eq_of_cover 7 _ (fun t _ => flushed_eq V c t) cover

end Array

end Cert.KernelIdeal.Layer2

end
-- ==== Proof.HostDefs.lean ====
/-
  The host-side stages both programs apply around the dense layers, named once: the edge list's two rows, the row index
  gathered at (a negative word wraps once by the table height), the kernel's range test of that index, its masked row
  gather, the inverse in-degrees, and the aggregate (messages summed into destination rows, rows scaled by the inverse
  in-degree).
-/
import proofs.«409698_j3899830304782_1_alg».proof.Proof.Gen.KernelIdeal

noncomputable section

namespace Cert.KernelIdeal.Host

open Cert.KernelIdeal Cert.KernelIdeal.Gen Idealize.ShloMosaic

variable {F : FTy → Type} [FloatOps F]

/-- Row 0 of the edge list: the source node of each edge. -/
def srcOf (ei : IVec S2x800000 32) : IVec S800000 32 :=
  shapeCast S800000 (extractStridedSlice S1x800000 ![0, 0] ei slices_S2x800000_S1x800000_0_0) shapeCasts_S1x800000_S800000

/-- Row 1 of the edge list: the destination node of each edge. -/
def dstOf (ei : IVec S2x800000 32) : IVec S800000 32 :=
  shapeCast S800000 (extractStridedSlice S1x800000 ![1, 0] ei slices_S2x800000_S1x800000_1_0) shapeCasts_S1x800000_S800000

/-- The row index the programs gather at: a negative word wraps once by the table's height. -/
def normIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The kernel's range test of the wrapped indices, edge by edge: 1 where the index names a row of the table. -/
def rangeMask (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The kernel's row gather: the gathered row where the index is in range, the fill word elsewhere. -/
def takeS (feat : FVec F S50000x128 .f32) (src : IVec S800000 32) : FVec F S800000x128 .f32 :=
  select (broadcastInDim S800000x128 ![0] bcast_S800000_S800000x128_0 (rangeMask (normIdx src)))
    (Host.gather gather_S50000x128_S800000x1_S800000x128_1_0_n_n_0_1_1128 feat (normIdx src))
    (broadcastInDim S800000x128 ![] bcast_S_S800000x128 (constant S_ .f32 0x7FC00000#32))

/-- The in-degree of each node (ones summed into destination entries). -/
def deg (dst : IVec S800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The inverse in-degree, zero where the degree is not positive. -/
def degInv (dst : IVec S800000 32) : FVec F S50000 .f32 :=
  select (cmpf .ogt (deg (F := F) dst) (broadcastInDim S50000 ![] bcast_S_S50000 (constant S_ .f32 0x00000000#32)))
    (Host.divf (broadcastInDim S50000 ![] bcast_S_S50000 (constant S_ .f32 0x3F800000#32))
      (maximumf (deg (F := F) dst) (broadcastInDim S50000 ![] bcast_S_S50000 (constant S_ .f32 0x3F800000#32))))
    (broadcastInDim S50000 ![] bcast_S_S50000 (id (constant S_ .f32 0x00000000#32)))

/-- Messages summed into their destination rows, each row then scaled by the inverse in-degree. -/
def aggS (msg : FVec F S800000x128 .f32) (dst : IVec S800000 32) (dinv : FVec F S50000 .f32) : FVec F S50000x128 .f32 :=
  mulf (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst) msg)
    (broadcastInDim S50000x128 ![0, 1] bcast_S50000x1_S50000x128_0_1 (broadcastInDim S50000x1 ![0] bcast_S50000_S50000x1_0 dinv))

/-- A bias vector as the one-row matrix the kernels load. -/
def rowOf128 (b : FVec F S128 .f32) : FVec F S1x128 .f32 := shapeCast S1x128 b shapeCasts_S128_S1x128
def rowOf40 (b : FVec F S40 .f32) : FVec F S1x40 .f32 := shapeCast S1x40 b shapeCasts_S40_S1x40

end Cert.KernelIdeal.Host

end
-- ==== Proof.KernelHost0.lean ====
/-
  The buffers the first kernel region finds, and those the second host stretch reads later, as functions of the launch
  arguments: each is what the host operations before the region compute (the aggregate of the node features over the edge
  list with the kernel's masked gather; the bias reshaped to a row; the edge list's rows and the inverse in-degrees), and
  an argument no operation writes is as launched.
-/
import proofs.«409698_j3899830304782_1_alg».proof.Proof.Gen.KernelIdeal.Frame
import proofs.«409698_j3899830304782_1_alg».proof.Proof.HostDefs
import Idealize.ShloMosaic.Lib.StableHlo.Run

set_option maxRecDepth 16384
set_option Elab.async false

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The edge list as launched. -/
abbrev eiW (c : Dev nD) : IVec S2x800000 32 := m ((c : Thread nD τ).loc main_arg1)

set_option maxHeartbeats 1000000 in
theorem W4_v21 (c : Dev nD) : W4 m ρ c (Proc.devRef .tc main_v21) = aggS (takeS (m ((c : Thread nD τ).loc main_arg0)) (srcOf (eiW m c))) (dstOf (eiW m c)) (degInv (dstOf (eiW m c))) := by
  dsimp only [W4, W3, W2, W1, hostOps0_3, hostOps0_2, hostOps0_1, hostOps0]
  after_results_simp
  simp only [TRef.ofBuf, TRef.toBuf, cast_eq]
  rfl

set_option maxHeartbeats 1000000 in
theorem W4_v22 (c : Dev nD) : W4 m ρ c (Proc.devRef .tc main_v22) = rowOf128 (m ((c : Thread nD τ).loc main_arg4)) := by
  dsimp only [W4, W3, W2, W1, hostOps0_3, hostOps0_2, hostOps0_1, hostOps0]
  after_results_simp
  rfl

set_option maxHeartbeats 1000000 in
theorem W4_v1 (c : Dev nD) : W4 m ρ c (Proc.devRef .tc main_v1) = srcOf (eiW m c) := by
  dsimp only [W4, W3, W2, W1, hostOps0_3, hostOps0_2, hostOps0_1, hostOps0]
  after_results_simp
  rfl

set_option maxHeartbeats 1000000 in
theorem W4_v3 (c : Dev nD) : W4 m ρ c (Proc.devRef .tc main_v3) = dstOf (eiW m c) := by
  dsimp only [W4, W3, W2, W1, hostOps0_3, hostOps0_2, hostOps0_1, hostOps0]
  after_results_simp
  rfl

set_option maxHeartbeats 1000000 in
theorem W4_v14 (c : Dev nD) : W4 m ρ c (Proc.devRef .tc main_v14) = degInv (F := F) (dstOf (eiW m c)) := by
  dsimp only [W4, W3, W2, W1, hostOps0_3, hostOps0_2, hostOps0_1, hostOps0]
  after_results_simp
  simp only [TRef.ofBuf, TRef.toBuf, cast_eq]
  rfl

set_option maxHeartbeats 1000000 in
theorem W4_arg0 (c : Dev nD) : W4 m ρ c (Proc.devRef .tc main_arg0) = m ((c : Thread nD τ).loc main_arg0) := by
  dsimp only [W4, W3, W2, W1, hostOps0_3, hostOps0_2, hostOps0_1, hostOps0]
  after_results_simp

set_option maxHeartbeats 1000000 in
theorem W4_arg2 (c : Dev nD) : W4 m ρ c (Proc.devRef .tc main_arg2) = m ((c : Thread nD τ).loc main_arg2) := by
  dsimp only [W4, W3, W2, W1, hostOps0_3, hostOps0_2, hostOps0_1, hostOps0]
  after_results_simp

set_option maxHeartbeats 1000000 in
theorem W4_arg3 (c : Dev nD) : W4 m ρ c (Proc.devRef .tc main_arg3) = m ((c : Thread nD τ).loc main_arg3) := by
  dsimp only [W4, W3, W2, W1, hostOps0_3, hostOps0_2, hostOps0_1, hostOps0]
  after_results_simp

set_option maxHeartbeats 1000000 in
theorem W4_arg5 (c : Dev nD) : W4 m ρ c (Proc.devRef .tc main_arg5) = m ((c : Thread nD τ).loc main_arg5) := by
  dsimp only [W4, W3, W2, W1, hostOps0_3, hostOps0_2, hostOps0_1, hostOps0]
  after_results_simp

set_option maxHeartbeats 1000000 in
theorem W4_arg6 (c : Dev nD) : W4 m ρ c (Proc.devRef .tc main_arg6) = m ((c : Thread nD τ).loc main_arg6) := by
  dsimp only [W4, W3, W2, W1, hostOps0_3, hostOps0_2, hostOps0_1, hostOps0]
  after_results_simp

set_option maxHeartbeats 1000000 in
theorem W4_arg7 (c : Dev nD) : W4 m ρ c (Proc.devRef .tc main_arg7) = m ((c : Thread nD τ).loc main_arg7) := by
  dsimp only [W4, W3, W2, W1, hostOps0_3, hostOps0_2, hostOps0_1, hostOps0]
  after_results_simp

set_option maxHeartbeats 1000000 in
theorem W4_arg8 (c : Dev nD) : W4 m ρ c (Proc.devRef .tc main_arg8) = m ((c : Thread nD τ).loc main_arg8) := by
  dsimp only [W4, W3, W2, W1, hostOps0_3, hostOps0_2, hostOps0_1, hostOps0]
  after_results_simp

set_option maxHeartbeats 1000000 in
theorem W4_arg9 (c : Dev nD) : W4 m ρ c (Proc.devRef .tc main_arg9) = m ((c : Thread nD τ).loc main_arg9) := by
  dsimp only [W4, W3, W2, W1, hostOps0_3, hostOps0_2, hostOps0_1, hostOps0]
  after_results_simp

end Cert.KernelIdeal.Host

end
-- ==== Proof.KernelHost1.lean ====
/-
  The buffers the second kernel region finds, as functions of what the first region leaves: the aggregate of the hidden
  features (the first region's output) over the same edge list with the kernel's masked gather, the two biases reshaped
  to rows, and the buffers no operation of the stretch writes, unchanged.
-/
import proofs.«409698_j3899830304782_1_alg».proof.Proof.Gen.KernelIdeal.Frame
import proofs.«409698_j3899830304782_1_alg».proof.Proof.HostDefs
import proofs.«409698_j3899830304782_1_alg».proof.Proof.KernelHost0
import Idealize.ShloMosaic.Lib.StableHlo.Run

set_option maxRecDepth 16384
set_option Elab.async false

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 1000000 in
theorem W7_v30 (c : Dev nD) : W7 m ρ c (Proc.devRef .tc main_v30) = aggS (takeS (W5 m ρ c (Proc.devRef .tc main_v23)) (W5 m ρ c (Proc.devRef .tc main_v1))) (W5 m ρ c (Proc.devRef .tc main_v3)) (W5 m ρ c (Proc.devRef .tc main_v14)) := by
  dsimp only [W7, W6, hostOps1_1, hostOps1]
  after_results_simp
  simp only [TRef.ofBuf, TRef.toBuf, cast_eq]
  rfl

set_option maxHeartbeats 1000000 in
theorem W7_v31 (c : Dev nD) : W7 m ρ c (Proc.devRef .tc main_v31) = rowOf128 (W5 m ρ c (Proc.devRef .tc main_arg7)) := by
  dsimp only [W7, W6, hostOps1_1, hostOps1]
  after_results_simp
  rfl

set_option maxHeartbeats 1000000 in
theorem W7_v32 (c : Dev nD) : W7 m ρ c (Proc.devRef .tc main_v32) = rowOf40 (W5 m ρ c (Proc.devRef .tc main_arg9)) := by
  dsimp only [W7, W6, hostOps1_1, hostOps1]
  after_results_simp
  rfl

set_option maxHeartbeats 1000000 in
theorem W7_v23 (c : Dev nD) : W7 m ρ c (Proc.devRef .tc main_v23) = W5 m ρ c (Proc.devRef .tc main_v23) := by
  dsimp only [W7, W6, hostOps1_1, hostOps1]
  after_results_simp

set_option maxHeartbeats 1000000 in
theorem W7_arg5 (c : Dev nD) : W7 m ρ c (Proc.devRef .tc main_arg5) = W5 m ρ c (Proc.devRef .tc main_arg5) := by
  dsimp only [W7, W6, hostOps1_1, hostOps1]
  after_results_simp

set_option maxHeartbeats 1000000 in
theorem W7_arg6 (c : Dev nD) : W7 m ρ c (Proc.devRef .tc main_arg6) = W5 m ρ c (Proc.devRef .tc main_arg6) := by
  dsimp only [W7, W6, hostOps1_1, hostOps1]
  after_results_simp

set_option maxHeartbeats 1000000 in
theorem W7_arg8 (c : Dev nD) : W7 m ρ c (Proc.devRef .tc main_arg8) = W5 m ρ c (Proc.devRef .tc main_arg8) := by
  dsimp only [W7, W6, hostOps1_1, hostOps1]
  after_results_simp

end Cert.KernelIdeal.Host

end
-- ==== Proof.TakeGather.lean ====
/-
  Where every source index is a valid row index (a row number, or minus a row number counted from the end), the kernel's
  masked row gather is the plain gather. A word w with -50000 ≤ w < 50000 wraps to w + 50000 when negative and stays w
  otherwise, so the wrapped index lies in [0, 49999]; the range test is then 1 on every edge, the conjunction over the
  unit axis is 1, and the select keeps the gathered row everywhere: the fill word is never read.
-/
import proofs.«409698_j3899830304782_1_alg».proof.Proof.HostDefs
import Idealize.ShloMosaic.Lib.ReduceAll
import Idealize.ShloMosaic.Lib.ValueIdx
import Idealize.ShloMosaic.Lib.Pipeline.Value

noncomputable section

namespace Cert.KernelIdeal.Host

open Cert.KernelIdeal Cert.KernelIdeal.Gen Idealize.ShloMosaic Idealize.ShloMosaic.ValueIdx

/-- A left fold by `and` from 1 over words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 by decide]
    exact foldl_andi_ones x hx l

/-- A reduce by `and` from 1 of an array of ones is 1 at every result index. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x hx _

/-- Adding the table height to a negative word no smaller than minus the height does not wrap around. -/
theorem toInt_add_height (w : BitVec 32) (hlo : -50000 ≤ w.toInt) (hneg : w.toInt < 0) :
    (IntOp.addi w 50000#32).toInt = w.toInt + 50000 := by
  show (w + 50000#32).toInt = w.toInt + 50000
  rw [BitVec.toInt_eq_toNat_cond] at hlo hneg ⊢
  rw [BitVec.toInt_eq_toNat_cond]
  simp only [BitVec.toNat_add, BitVec.toNat_ofNat] at *
  have := w.isLt
  split_ifs at * <;> omega

/-- The wrapped word of a valid index is a row number: between 0 and 49999. -/
theorem wrap_in_range (w : BitVec 32) (hlo : -50000 ≤ w.toInt) (hhi : w.toInt < 50000) :
    IntOp.cmpi .sge (Scalar.select (IntOp.cmpi .slt w 0#32) (IntOp.addi w 50000#32) w) 0#32 = 1#1
    ∧ IntOp.cmpi .sle (Scalar.select (IntOp.cmpi .slt w 0#32) (IntOp.addi w 50000#32) w) 49999#32 = 1#1 := by
  have h0 : (0#32 : BitVec 32).toInt = 0 := by decide
  have h1 : (49999#32 : BitVec 32).toInt = 49999 := by decide
  rw [IntOp.cmpi_sge, IntOp.cmpi_sle, h0, h1]
  by_cases hneg : w.toInt < 0
  · have hc : IntOp.cmpi .slt w 0#32 = 1#1 := IntOp.cmpi_slt.2 (by rw [h0]; exact hneg)
    rw [hc, select_one, toInt_add_height w hlo hneg]
    omega
  · have hc : ¬ IntOp.cmpi .slt w 0#32 = 1#1 := fun h => hneg (by have := IntOp.cmpi_slt.1 h; rwa [h0] at this)
    rw [eq_zero_of_ne_one hc, select_zero]
    omega

variable {F : FTy → Type} [FloatOps F]

/-- The wrapped index of edge e, read out of its broadcast column. -/
theorem normIdx_apply (src : IVec S800000 32) (e : Fin 800000) (u : Fin 1) :
    normIdx src (ix2 e u) = Scalar.select (IntOp.cmpi .slt (src (ix1 e)) 0#32) (IntOp.addi (src (ix1 e)) 50000#32) (src (ix1 e)) := by
  unfold normIdx
  exact broadcastInDim_apply _ bcast_S800000_S800000x1_0 _ (ix2 e u) (ix1 e) (fun a => match a with
    | ⟨0, _⟩ => by show e.val = if (800000 : Nat) = 1 then 0 else e.val; rw [if_neg (by decide)])

/-- With every source index valid the kernel's range test is 1 on every edge. -/
theorem rangeMask_one (src : IVec S800000 32) (hsrc : ∀ e, -50000 ≤ (src e).toInt ∧ (src e).toInt < 50000) (j : S800000.Idx) :
    rangeMask (normIdx src) j = 1#1 := by
  unfold rangeMask
  refine reduce_andi_one _ _ _ _ rfl (fun i => ?_) j
  obtain ⟨e, u, rfl⟩ : ∃ (e : Fin 800000) (u : Fin 1), i = ix2 e u := ⟨i 0, i 1, eq_ix2 i⟩
  show IntOp.andi (IntOp.cmpi .sge (normIdx src (ix2 e u)) 0#32) (IntOp.cmpi .sle (normIdx src (ix2 e u)) 49999#32) = 1#1
  rw [normIdx_apply]
  obtain ⟨h1, h2⟩ := wrap_in_range _ (hsrc (ix1 e)).1 (hsrc (ix1 e)).2
  rw [h1, h2]; decide

/-- With every source index valid the masked gather is the gather. -/
theorem takeS_eq_gather (feat : FVec F S50000x128 .f32) (src : IVec S800000 32)
    (hsrc : ∀ e, -50000 ≤ (src e).toInt ∧ (src e).toInt < 50000) :
    takeS feat src = Host.gather gather_S50000x128_S800000x1_S800000x128_1_0_n_n_0_1_1128 feat (normIdx src) := by
  funext i
  unfold takeS
  rw [select_apply]
  have hm : broadcastInDim S800000x128 ![0] bcast_S800000_S800000x128_0 (rangeMask (normIdx src)) i = 1#1 := by
    obtain ⟨e, j, rfl⟩ : ∃ (e : Fin 800000) (j : Fin 128), i = ix2 e j := ⟨i 0, i 1, eq_ix2 i⟩
    rw [broadcastInDim_apply _ bcast_S800000_S800000x128_0 _ (ix2 e j) (ix1 e) (fun a => match a with
      | ⟨0, _⟩ => by show e.val = if (800000 : Nat) = 1 then 0 else e.val; rw [if_neg (by decide)])]
    exact rangeMask_one src hsrc _
  rw [hm, select_one]

end Cert.KernelIdeal.Host

end
-- ==== Proof.RefLayers.lean ====
/-
  The reference program as the same two stages. Its mean aggregate of a feature table over the edge list — gather the
  source rows, add them into the destination rows, scale each row by the inverse in-degree — is ONE function `agg` of the
  table and the edge list, used twice: on the node features and on the first layer's output. Around it the reference
  computes a layer on whole arrays (two products, their sum, the bias row broadcast down the rows, the maximum with
  zero) twice and then the classifier product and bias; read at an entry each product is the sum over the contracted
  axis, so the three stages are `Sage.layer`, `Sage.layer` and `Sage.classify` of the arrays before them.
-/
import proofs.«409698_j3899830304782_1_alg».proof.Proof.RefRead
import proofs.«409698_j3899830304782_1_alg».proof.Proof.Spec

noncomputable section

namespace Cert.ReferenceIdeal.Layers

open Cert.ReferenceIdeal Cert.ReferenceIdeal.ReadP Idealize.ShloMosaic Idealize.ShloMosaic.TcCoe Idealize.ShloMosaic.ValueIdx
open scoped BigOperators

section Agg
variable {F : FTy → Type} [FloatOps F]

/-- The mean aggregate of a feature table over the edge list, as the reference's operations spell it. -/
def agg (feat : (⟨S50000x128, .f32⟩ : BufTy).Contents (Elt F)) (x1 : (⟨S2x800000, .i32⟩ : BufTy).Contents (Elt F)) : (⟨S50000x128, .f32⟩ : BufTy).Contents (Elt F) :=
  mulf (Host.scatterAdd scatter_S50000x128_S800000x1_S800000x128_1_0_0_1 (val_main_v22 (F := F)) (val_main_v23 (F := F) x1)
      (Host.gather gather_S50000x128_S800000x1_S800000x128_1_0_n_n_0_1_1128 feat (val_main_v20 (F := F) x1)))
    (val_main_v26 (F := F) x1)

/-- The first aggregate is `agg` of the node features. -/
theorem v27_eq (x0 : (⟨S50000x128, .f32⟩ : BufTy).Contents (Elt F)) (x1 : (⟨S2x800000, .i32⟩ : BufTy).Contents (Elt F)) :
    val_main_v27 (F := F) x0 x1 = agg x0 x1 := rfl

/-- The second aggregate is `agg` of the first layer's output: the same operations on the same edge list. -/
theorem v47_eq (x0 : (⟨S50000x128, .f32⟩ : BufTy).Contents (Elt F)) (x1 : (⟨S2x800000, .i32⟩ : BufTy).Contents (Elt F)) (x2 x3 : (⟨S128x128, .f32⟩ : BufTy).Contents (Elt F)) (x4 : (⟨S128, .f32⟩ : BufTy).Contents (Elt F)) :
    val_main_v47 (F := F) x0 x1 x2 x3 x4 = agg (val_main_v34 (F := F) x0 x1 x2 x3 x4) x1 := rfl

end Agg

/-- The first layer's output is `Sage.layer` of the first aggregate, the node features, the weights and the bias row. -/
theorem v34_eq (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) :
    val_main_v34 (F := Ideal) x0 x1 x2 x3 x4
      = Sage.layer (N := 50000) (C := 128) (D := 128) (val_main_v27 (F := Ideal) x0 x1) x0 x2 x3 (val_main_v31 (F := Ideal) x4) := by
  funext i
  obtain ⟨n, j, rfl⟩ : ∃ (n : Fin 50000) (j : Fin 128), i = ix2 n j := ⟨i 0, i 1, eq_ix2 i⟩
  rw [Sage.layer_apply, val_main_v34_apply, val_main_v33_apply, val_main_v30_apply, val_main_v28_apply, val_main_v29_apply,
    val_main_v32_apply, val_main_call1_v0_apply, val_main_call1_cst_apply]
  have hl (k : Fin 128) : lidx_main_v28 (ix2 n j) k = ix2 n k := funext fun a => Fin.ext (by match a with | ⟨0, _⟩ => rfl | ⟨1, _⟩ => rfl)
  have hr (k : Fin 128) : ridx_main_v28 (ix2 n j) k = ix2 k j := funext fun a => Fin.ext (by match a with | ⟨0, _⟩ => rfl | ⟨1, _⟩ => rfl)
  have hl' (k : Fin 128) : lidx_main_v29 (ix2 n j) k = ix2 n k := funext fun a => Fin.ext (by match a with | ⟨0, _⟩ => rfl | ⟨1, _⟩ => rfl)
  have hr' (k : Fin 128) : ridx_main_v29 (ix2 n j) k = ix2 k j := funext fun a => Fin.ext (by match a with | ⟨0, _⟩ => rfl | ⟨1, _⟩ => rfl)
  have hb : idx_main_v32 (ix2 n j) = ix2 0 j := funext fun a => Fin.ext (by match a with | ⟨0, _⟩ => rfl | ⟨1, _⟩ => rfl)
  simp only [hl, hr, hl', hr', hb]
  rfl

/-- The second layer's output is `Sage.layer` of the second aggregate and the first layer's output. -/
theorem v54_eq (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v54 (F := Ideal) x0 x1 x2 x3 x4 x5 x6 x7
      = Sage.layer (N := 50000) (C := 128) (D := 128) (val_main_v47 (F := Ideal) x0 x1 x2 x3 x4) (val_main_v34 (F := Ideal) x0 x1 x2 x3 x4) x5 x6 (val_main_v51 (F := Ideal) x7) := by
  funext i
  obtain ⟨n, j, rfl⟩ : ∃ (n : Fin 50000) (j : Fin 128), i = ix2 n j := ⟨i 0, i 1, eq_ix2 i⟩
  rw [Sage.layer_apply, val_main_v54_apply, val_main_v53_apply, val_main_v50_apply, val_main_v48_apply, val_main_v49_apply,
    val_main_v52_apply, val_main_call2_v0_apply, val_main_call2_cst_apply]
  have hl (k : Fin 128) : lidx_main_v48 (ix2 n j) k = ix2 n k := funext fun a => Fin.ext (by match a with | ⟨0, _⟩ => rfl | ⟨1, _⟩ => rfl)
  have hr (k : Fin 128) : ridx_main_v48 (ix2 n j) k = ix2 k j := funext fun a => Fin.ext (by match a with | ⟨0, _⟩ => rfl | ⟨1, _⟩ => rfl)
  have hl' (k : Fin 128) : lidx_main_v49 (ix2 n j) k = ix2 n k := funext fun a => Fin.ext (by match a with | ⟨0, _⟩ => rfl | ⟨1, _⟩ => rfl)
  have hr' (k : Fin 128) : ridx_main_v49 (ix2 n j) k = ix2 k j := funext fun a => Fin.ext (by match a with | ⟨0, _⟩ => rfl | ⟨1, _⟩ => rfl)
  have hb : idx_main_v52 (ix2 n j) = ix2 0 j := funext fun a => Fin.ext (by match a with | ⟨0, _⟩ => rfl | ⟨1, _⟩ => rfl)
  simp only [hl, hr, hl', hr', hb]
  rfl

/-- The result is `Sage.classify` of the second layer's output, the classifier matrix and its bias row. -/
theorem v58_eq (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) (x8 : (⟨S128x40, .f32⟩ : BufTy).Contents (Elt Ideal)) (x9 : (⟨S40, .f32⟩ : BufTy).Contents (Elt Ideal)) :
    val_main_v58 (F := Ideal) x0 x1 x2 x3 x4 x5 x6 x7 x8 x9
      = Sage.classify (N := 50000) (C := 128) (D := 40) (val_main_v54 (F := Ideal) x0 x1 x2 x3 x4 x5 x6 x7) x8 (val_main_v56 (F := Ideal) x9) := by
  funext i
  obtain ⟨n, j, rfl⟩ : ∃ (n : Fin 50000) (j : Fin 40), i = ix2 n j := ⟨i 0, i 1, eq_ix2 i⟩
  rw [Sage.classify_apply, val_main_v58_apply, val_main_v55_apply, val_main_v57_apply]
  have hl (k : Fin 128) : lidx_main_v55 (ix2 n j) k = ix2 n k := funext fun a => Fin.ext (by match a with | ⟨0, _⟩ => rfl | ⟨1, _⟩ => rfl)
  have hr (k : Fin 128) : ridx_main_v55 (ix2 n j) k = ix2 k j := funext fun a => Fin.ext (by match a with | ⟨0, _⟩ => rfl | ⟨1, _⟩ => rfl)
  have hb : idx_main_v57 (ix2 n j) = ix2 0 j := funext fun a => Fin.ext (by match a with | ⟨0, _⟩ => rfl | ⟨1, _⟩ => rfl)
  simp only [hl, hr, hb]
  rfl

/-- The whole reference: the classifier on the second layer, each layer over `agg` of the features before it. -/
theorem result_eq (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) (x8 : (⟨S128x40, .f32⟩ : BufTy).Contents (Elt Ideal)) (x9 : (⟨S40, .f32⟩ : BufTy).Contents (Elt Ideal)) :
    val_main_v58 (F := Ideal) x0 x1 x2 x3 x4 x5 x6 x7 x8 x9
      = Sage.classify (N := 50000) (C := 128) (D := 40)
          (Sage.layer (N := 50000) (C := 128) (D := 128)
            (agg (F := Ideal) (Sage.layer (N := 50000) (C := 128) (D := 128) (agg (F := Ideal) x0 x1) x0 x2 x3 (val_main_v31 (F := Ideal) x4)) x1)
            (Sage.layer (N := 50000) (C := 128) (D := 128) (agg (F := Ideal) x0 x1) x0 x2 x3 (val_main_v31 (F := Ideal) x4))
            x5 x6 (val_main_v51 (F := Ideal) x7))
          x8 (val_main_v56 (F := Ideal) x9) := by
  rw [v58_eq, v54_eq, v47_eq, v34_eq, v27_eq]

end Cert.ReferenceIdeal.Layers

end
-- ==== Proof.PreRange.lean ====
/-
  The precondition, read back for the edge list. Its last conjunct says that every entry of the edge list's source row
  is at least -50000 and below 50000, signed: the indices at which the reference's `x[src]` reads a row of the
  50000-row table (a row number, or minus a row number counted from the end). The predicate prints as a conjunction of
  `jnp.all`s; the last one is a reduce by `and` over all edges of the two signed comparisons, so where the predicate is
  all ones both comparisons hold at every edge.
-/
import proofs.«409698_j3899830304782_1_alg».proof.Pre_finite_inputs
import Idealize.ShloMosaic.Lib.ReduceAll
import Idealize.ShloMosaic.Lib.ValueIdx

noncomputable section

namespace Cert.Pre_finite_inputs.Range

open Cert.Pre_finite_inputs Cert.Pre_finite_inputs.Facts Idealize.ShloMosaic

instance : Subsingleton S_.Idx := ⟨fun _ _ => funext fun d => d.elim0⟩

variable [Facts] {F : FTy → Type} [FloatOps F]

/-- The source row of the edge list, as the predicate's operations spell it. -/
def srcP (ei : IVec S2x800000 32) : IVec S800000 32 :=
  shapeCast S800000 (extractStridedSlice S1x800000 ![0, 0] ei slices_S2x800000_S1x800000_0_0) shapeCasts_S1x800000_S800000

set_option maxHeartbeats 1000000 in
/-- Where the predicate is all ones, every source index is a valid row index of the 50000-row table. -/
theorem src_range (a0 : FVec F S50000x128 .f32) (a1 : IVec S2x800000 32) (a2 a3 : FVec F S128x128 .f32) (a4 : FVec F S128 .f32) (a5 a6 : FVec F S128x128 .f32) (a7 : FVec F S128 .f32) (a8 : FVec F S128x40 .f32) (a9 : FVec F S40 .f32)
    (h : fn (F := F) a0 a1 a2 a3 a4 a5 a6 a7 a8 a9 = fun _ => 1#1) (e : S800000.Idx) :
    -50000 ≤ (srcP a1 e).toInt ∧ (srcP a1 e).toInt < 50000 := by
  have e0 := congrFun h ValueIdx.ix0
  simp only [fn, fn_part1, fn_part2, fn_part3] at e0
  have e1 := (IntOp.andi_eq_one.1 e0).2
  have e2 := Host.reduce_andi_all _ _ _ _ _ e1 e
  obtain ⟨h1, h2⟩ := IntOp.andi_eq_one.1 e2
  have hlo := IntOp.cmpi_sge.1 h1
  have hhi := IntOp.cmpi_slt.1 h2
  have c1 : (4294917296#32 : BitVec 32).toInt = -50000 := by decide
  have c2 : (50000#32 : BitVec 32).toInt = 50000 := by decide
  exact ⟨c1 ▸ hlo, c2 ▸ hhi⟩

end Cert.Pre_finite_inputs.Range

end
-- ==== Proof.Bridge.lean ====
/-
  The two programs spell the same host stages over differently named copies of the same shapes and dimension records.
  The reference's aggregate of a table over the edge list is the kernel's aggregate with the plain gather; the
  reference's bias row (the bias vector broadcast to a one-row matrix) is the kernel's (the same vector reshaped to one
  row); and the source row the precondition reads is the one both programs gather at.
-/
import proofs.«409698_j3899830304782_1_alg».proof.Proof.HostDefs
import proofs.«409698_j3899830304782_1_alg».proof.Proof.RefLayers
import proofs.«409698_j3899830304782_1_alg».proof.Proof.PreRange
import Idealize.ShloMosaic.Lib.Pipeline.Value

noncomputable section

namespace Cert.Bridge

open Idealize.ShloMosaic Idealize.ShloMosaic.ValueIdx
open Cert.KernelIdeal.Host

section Host
variable {F : FTy → Type} [FloatOps F]

/-- The aggregate with the plain gather, in the kernel's spelling. -/
def aggG (feat : FVec F Cert.KernelIdeal.S50000x128 .f32) (ei : IVec Cert.KernelIdeal.S2x800000 32) : FVec F Cert.KernelIdeal.S50000x128 .f32 :=
  aggS (Host.gather Cert.KernelIdeal.gather_S50000x128_S800000x1_S800000x128_1_0_n_n_0_1_1128 feat (normIdx (srcOf ei))) (dstOf ei) (degInv (dstOf ei))

set_option maxHeartbeats 1000000 in
/-- The reference's aggregate is the kernel's with the plain gather: the same operations on the same operands. -/
theorem agg_eq (feat : FVec F Cert.KernelIdeal.S50000x128 .f32) (ei : IVec Cert.KernelIdeal.S2x800000 32) :
    Cert.ReferenceIdeal.Layers.agg (F := F) feat ei = aggG feat ei := rfl

/-- The source row the precondition reads is the one the programs gather at. -/
theorem srcP_eq [Cert.Pre_finite_inputs.Facts] (ei : IVec Cert.KernelIdeal.S2x800000 32) :
    Cert.Pre_finite_inputs.Range.srcP ei = srcOf ei := rfl

/-- A bias vector broadcast to a one-row matrix is the vector reshaped to one row. -/
theorem row128_eq (b : FVec F Cert.KernelIdeal.S128 .f32) :
    Cert.ReferenceIdeal.ReadP.val_main_v31 (F := F) b = rowOf128 b := by
  funext i
  rw [Cert.ReferenceIdeal.ReadP.val_main_v31_apply]
  unfold rowOf128
  exact (shapeCast_apply b Cert.KernelIdeal.Gen.shapeCasts_S128_S1x128 i (Cert.ReferenceIdeal.ReadP.idx_main_v31 i)
    (by rewrite [Shape.rowMajor_val_one, Shape.rowMajor_val_two]; have h0 : (i 0).val < 1 := (i 0).isLt; show (i 1).val = (i 0).val * 128 + (i 1).val; omega)).symm

theorem row128'_eq (b : FVec F Cert.KernelIdeal.S128 .f32) :
    Cert.ReferenceIdeal.ReadP.val_main_v51 (F := F) b = rowOf128 b := by
  funext i
  rw [Cert.ReferenceIdeal.ReadP.val_main_v51_apply]
  unfold rowOf128
  exact (shapeCast_apply b Cert.KernelIdeal.Gen.shapeCasts_S128_S1x128 i (Cert.ReferenceIdeal.ReadP.idx_main_v51 i)
    (by rewrite [Shape.rowMajor_val_one, Shape.rowMajor_val_two]; have h0 : (i 0).val < 1 := (i 0).isLt; show (i 1).val = (i 0).val * 128 + (i 1).val; omega)).symm

theorem row40_eq (b : FVec F Cert.KernelIdeal.S40 .f32) :
    Cert.ReferenceIdeal.ReadP.val_main_v56 (F := F) b = rowOf40 b := by
  funext i
  rw [Cert.ReferenceIdeal.ReadP.val_main_v56_apply]
  unfold rowOf40
  exact (shapeCast_apply b Cert.KernelIdeal.Gen.shapeCasts_S40_S1x40 i (Cert.ReferenceIdeal.ReadP.idx_main_v56 i)
    (by rewrite [Shape.rowMajor_val_one, Shape.rowMajor_val_two]; have h0 : (i 0).val < 1 := (i 0).isLt; show (i 1).val = (i 0).val * 40 + (i 1).val; omega)).symm

end Host

end Cert.Bridge

end
-- ==== Proof.KernelValue.lean ====
/-
  The kernel program's result as one function of the launch arguments. The run ends with the result buffer at what the
  second region's write-backs leave: the classifier on a layer of the second aggregate and the hidden features, where
  the hidden features are what the first region leaves: a layer of the first aggregate and the node features. Each
  aggregate is the host's (masked gather, scatter-add, scaling by the inverse in-degree) of the features before it over
  the launched edge list; where every source index is a valid row index the masked gather is the plain gather.
-/
import proofs.«409698_j3899830304782_1_alg».proof.Proof.KernelRun
import proofs.«409698_j3899830304782_1_alg».proof.Proof.KernelLayer2
import proofs.«409698_j3899830304782_1_alg».proof.Proof.KernelHost0
import proofs.«409698_j3899830304782_1_alg».proof.Proof.KernelHost1
import proofs.«409698_j3899830304782_1_alg».proof.Proof.TakeGather
import proofs.«409698_j3899830304782_1_alg».proof.Proof.Bridge

set_option maxRecDepth 16384

noncomputable section

namespace Cert.KernelIdeal.Result

open Cert.KernelIdeal Cert.KernelIdeal.Gen Cert.KernelIdeal.Host Idealize.ShloMosaic Idealize.ShloMosaic.TcCoe Idealize.SL.Sem
open Cert.Bridge (aggG)

variable (m : (ℓ : Loc nD τ sig) → Buf (Elt Ideal) ℓ) (ρ : Dev nD → PrngReg)

/-- The hidden features: the first layer on the node features. -/
def hidden (c : Dev nD) : Vec Ideal S50000x128 .f32 :=
  Sage.layer (N := 50000) (C := 128) (D := 128) (aggG (F := Ideal) (m ((c : Thread nD τ).loc main_arg0)) (eiW m c)) (m ((c : Thread nD τ).loc main_arg0)) (m ((c : Thread nD τ).loc main_arg2)) (m ((c : Thread nD τ).loc main_arg3)) (rowOf128 (F := Ideal) (m ((c : Thread nD τ).loc main_arg4)))

/-- The result: the classifier on the second layer, the second layer on the hidden features. -/
def out (c : Dev nD) : Vec Ideal S50000x40 .f32 :=
  Sage.classify (N := 50000) (C := 128) (D := 40)
    (Sage.layer (N := 50000) (C := 128) (D := 128) (aggG (F := Ideal) (hidden m c) (eiW m c)) (hidden m c) (m ((c : Thread nD τ).loc main_arg5)) (m ((c : Thread nD τ).loc main_arg6)) (rowOf128 (F := Ideal) (m ((c : Thread nD τ).loc main_arg7))))
    (m ((c : Thread nD τ).loc main_arg8)) (rowOf40 (F := Ideal) (m ((c : Thread nD τ).loc main_arg9)))

variable (c : Dev nD) (hsrc : ∀ e, -50000 ≤ (srcOf (eiW m c) e).toInt ∧ (srcOf (eiW m c) e).toInt < 50000)

include hsrc in
/-- What the first region leaves in its output array: the hidden features. -/
theorem W5_v23 : W5 m ρ c (Proc.devRef .tc main_v23) = hidden m c := by
  refine (W5_arr m ρ c 5).trans ?_
  refine (Layer1.final (V4 m ρ) c).trans ?_
  dsimp only [Layer1.aggA, Layer1.xA, Layer1.wlA, Layer1.wrA, Layer1.bA, V4]
  rw [W4_v21, W4_arg0, W4_arg2, W4_arg3, W4_v22, takeS_eq_gather _ _ hsrc]
  rfl

set_option maxHeartbeats 2000000 in
include hsrc in
/-- What the run leaves in the result buffer. -/
theorem W8_v33 : W8 m ρ c (Proc.devRef .tc main_v33) = out m c := by
  refine (W8_arr m ρ c 7).trans ?_
  refine (Layer2.final (V7 m ρ) c).trans ?_
  dsimp only [Layer2.aggA, Layer2.hA, Layer2.wlA, Layer2.wrA, Layer2.bA, Layer2.wcA, Layer2.bcA, V7]
  rw [W7_v30, W7_v23, W7_arg5, W7_arg6, W7_arg8, W7_v31, W7_v32]
  rw [W5_v23 m ρ c hsrc,
    W5_of_ne m ρ c main_v1 (by decide), W4_v1, W5_of_ne m ρ c main_v3 (by decide), W4_v3,
    W5_of_ne m ρ c main_v14 (by decide), W4_v14,
    W5_of_ne m ρ c main_arg5 (by decide), W4_arg5, W5_of_ne m ρ c main_arg6 (by decide), W4_arg6,
    W5_of_ne m ρ c main_arg7 (by decide), W4_arg7, W5_of_ne m ρ c main_arg8 (by decide), W4_arg8,
    W5_of_ne m ρ c main_arg9 (by decide), W4_arg9, takeS_eq_gather _ _ hsrc]
  rfl

end Cert.KernelIdeal.Result

end
-- ==== Proof.lean ====
/-
  A two-layer graph network with a linear classifier: each layer takes the mean of the neighbours' features over the
  edge list (gather the source rows, add them into the destination rows, divide by the in-degree), multiplies that mean
  and the node's own features by two weight matrices, adds a bias and takes the maximum with zero; the classifier is one
  more product and bias. The kernel program does the gathers and scatter-adds on the host and the dense part of each
  layer in one tiled kernel region (the second region also applies the classifier); the reference does everything on
  whole arrays. Over the extended reals both are the same function of the inputs wherever every source index of the edge
  list is a valid row index, -50000 ≤ s < 50000: there the kernel's gather, which would fill a row with a fill word at
  an index out of range, and the reference's, which would clamp it, read the same row. The dense stages agree term by
  term: each product is the sum over the contracted axis, in the same association on both sides, the change to bf16 in
  front of the kernel's products is the identity here, and the kernel's 25 tiles of 2000 rows partition the 50000 rows.

  The three frame claims: the two kernel programs' by their frame certificates, the reference's by its run with the
  result dropped. No rewrite was applied by the ideal pass, so the preservation claim is trivial. The equivalence: the
  kernel program's run ends with the result at the classifier of a layer of a layer of the inputs (the two regions read
  as whole-array functions, the host stretches between them as the aggregate), and the reference's run at the same term.
-/
import proofs.«409698_j3899830304782_1_alg».proof.Defs
import proofs.«409698_j3899830304782_1_alg».proof.Proof.Gen.Kernel
import proofs.«409698_j3899830304782_1_alg».proof.Proof.Gen.Kernel.Skeleton
import proofs.«409698_j3899830304782_1_alg».proof.Proof.Gen.Kernel.Launch
import proofs.«409698_j3899830304782_1_alg».proof.Proof.Gen.Kernel.Points
import proofs.«409698_j3899830304782_1_alg».proof.Proof.Gen.Kernel.Frame
import proofs.«409698_j3899830304782_1_alg».proof.Proof.Gen.KernelIdeal
import proofs.«409698_j3899830304782_1_alg».proof.Proof.Gen.KernelIdeal.Skeleton
import proofs.«409698_j3899830304782_1_alg».proof.Proof.Gen.KernelIdeal.Launch
import proofs.«409698_j3899830304782_1_alg».proof.Proof.Gen.KernelIdeal.Points
import proofs.«409698_j3899830304782_1_alg».proof.Proof.Gen.KernelIdeal.Frame
import proofs.«409698_j3899830304782_1_alg».proof.Proof.Gen.ReferenceIdeal
import proofs.«409698_j3899830304782_1_alg».proof.Proof.Gen.Pre_finite_inputs
import proofs.«409698_j3899830304782_1_alg».proof.Proof.KernelValue
import proofs.«409698_j3899830304782_1_alg».proof.Proof.RefLayers
import proofs.«409698_j3899830304782_1_alg».proof.Proof.Bridge
import proofs.«409698_j3899830304782_1_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments, with every source index of the edge list a valid row index, both programs
    end with the classifier of the second layer of the first layer of the inputs in their result buffers. -/
theorem algebraic : Cert.algebraic_KernelIdeal_ReferenceIdeal := by
  intro m ρ m' ρ' hpre hagree
  have hsrc : ∀ (c : Dev Cert.KernelIdeal.nD) e,
      -50000 ≤ (Cert.KernelIdeal.Host.srcOf (Cert.KernelIdeal.Host.eiW m c) e).toInt
        ∧ (Cert.KernelIdeal.Host.srcOf (Cert.KernelIdeal.Host.eiW m c) e).toInt < 50000 :=
    fun c e => Cert.Pre_finite_inputs.Range.src_range _ _ _ _ _ _ _ _ _ _ (hpre c) e
  refine ⟨fun c => Cert.KernelIdeal.Result.out m c, ?_, ?_⟩
  · exact (θ_run Cert.KernelIdeal.defs _ _).mono
      (fun r h c => ⟨(h c).1.trans (Cert.KernelIdeal.Result.W8_v33 m ρ c (hsrc c)), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9⟩ := hagree c
    rw [Cert.ReferenceIdeal.ReadP.val_main_v58_eq, a0, a1, a2, a3, a4, a5, a6, a7, a8, a9,
      Cert.ReferenceIdeal.Layers.result_eq]
    simp only [Cert.Bridge.agg_eq, Cert.Bridge.row128_eq, Cert.Bridge.row128'_eq, Cert.Bridge.row40_eq]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
